-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S20000x128 .f32) (main_arg2 : IVec S2x600000 32) (main_arg3 : IVec S2x600000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩

abbrev nBuf : Space → Nat
  | .hbm => 97
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S100000x128, .f32⟩
  | .hbm, ⟨10, _⟩ => ⟨S1x128, .f32⟩
  | .hbm, ⟨11, _⟩ => ⟨S20000x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x600000, .i32⟩
  | .hbm, ⟨42, _⟩ => ⟨S600000, .i32⟩
  | .hbm, ⟨43, _⟩ => ⟨S1x600000, .i32⟩
  | .hbm, ⟨44, _⟩ => ⟨S600000, .i32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S20000x128, .f32⟩
  | .hbm, ⟨56, _⟩ => ⟨S600000x1, .i32⟩
  | .hbm, ⟨57, _⟩ => ⟨S20000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S20000, .f32⟩
  | .hbm, ⟨62, _⟩ => ⟨S600000x1, .i32⟩
  | .hbm, ⟨63, _⟩ => ⟨S20000, .f32⟩
  | .hbm, ⟨64, _⟩ => ⟨S_, .f32⟩
  | .hbm, ⟨65, _⟩ => ⟨S20000, .f32⟩
  | .hbm, ⟨66, _⟩ => ⟨S20000, .f32⟩
  | .hbm, ⟨67, _⟩ => ⟨S20000x1, .f32⟩
  | .hbm, ⟨68, _⟩ => ⟨S20000x128, .f32⟩
  | .hbm, ⟨69, _⟩ => ⟨S20000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S100000x128, .f32⟩
  | .hbm, ⟨81, _⟩ => ⟨S600000x1, .i32⟩
  | .hbm, ⟨82, _⟩ => ⟨S100000x128, .f32⟩
  | .hbm, ⟨83, _⟩ => ⟨S_, .f32⟩
  | .hbm, ⟨84, _⟩ => ⟨S600000, .f32⟩
  | .hbm, ⟨85, _⟩ => ⟨S_, .f32⟩
  | .hbm, ⟨86, _⟩ => ⟨S100000, .f32⟩
  | .hbm, ⟨87, _⟩ => ⟨S600000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S20000x128_S600000x1_S600000x128_1_0_n_n_0_1_1128_wf : GatherDims.WF S20000x128 S600000x1 S600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S20000x128.size a
  hwx3_2 : ∀ i : grid3.Coords, EltTy.bits .f32 = 32 ∨ (Rect.block (s := S20000x128) S2000x128.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S20000x128, .f32⟩
  | .hbm, ⟨13, _⟩ => ⟨S1x128, .f32⟩
  | .hbm, ⟨14, _⟩ => ⟨S20000x128, .f32⟩
  | .hbm, ⟨15, _⟩ => ⟨S20000x128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S100000, .f32⟩
  | .hbm, ⟨37, _⟩ => ⟨S600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x600000, .i32⟩
  | .hbm, ⟨46, _⟩ => ⟨S600000, .i32⟩
  | .hbm, ⟨47, _⟩ => ⟨S1x600000, .i32⟩
  | .hbm, ⟨48, _⟩ => ⟨S600000, .i32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S20000x128, .f32⟩
  | .hbm, ⟨60, _⟩ => ⟨S600000x1, .i32⟩
  | .hbm, ⟨61, _⟩ => ⟨S20000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S20000, .f32⟩
  | .hbm, ⟨66, _⟩ => ⟨S600000x1, .i32⟩
  | .hbm, ⟨67, _⟩ => ⟨S20000, .f32⟩
  | .hbm, ⟨68, _⟩ => ⟨S_, .f32⟩
  | .hbm, ⟨69, _⟩ => ⟨S20000, .f32⟩
  | .hbm, ⟨70, _⟩ => ⟨S20000, .f32⟩
  | .hbm, ⟨71, _⟩ => ⟨S20000x1, .f32⟩
  | .hbm, ⟨72, _⟩ => ⟨S20000x128, .f32⟩
  | .hbm, ⟨73, _⟩ => ⟨S20000x128, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S600000x128, .f32⟩
  | .hbm, ⟨83, _⟩ => ⟨S_, .f32⟩
  | .hbm, ⟨84, _⟩ => ⟨S100000x128, .f32⟩
  | .hbm, ⟨85, _⟩ => ⟨S600000x1, .i32⟩
  | .hbm, ⟨86, _⟩ => ⟨S100000x128, .f32⟩
  | .hbm, ⟨87, _⟩ => ⟨S_, .f32⟩
  | .hbm, ⟨88, _⟩ => ⟨S600000, .f32⟩
  | .hbm, ⟨89, _⟩ => ⟨S_, .f32⟩
  | .hbm, ⟨90, _⟩ => ⟨S100000, .f32⟩
  | .hbm, ⟨91, _⟩ => ⟨S600000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S20000x128, .f32⟩
  | .hbm, ⟨105, _⟩ => ⟨S_, .f32⟩
  | .hbm, ⟨106, _⟩ => ⟨S20000x128, .f32⟩
  | .hbm, ⟨107, _⟩ => ⟨S20000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call0_cst : Ref sig .tc := ⟨.hbm, 101, rfl⟩
abbrev main_call0_v0 : Ref sig .tc := ⟨.hbm, 102, rfl⟩
abbrev main_v75 : Ref sig .tc := ⟨.hbm, 103, rfl⟩
abbrev main_v76 : Ref sig .tc := ⟨.hbm, 104, rfl⟩
abbrev main_call1_cst : Ref sig .tc := ⟨.hbm, 105, rfl⟩
abbrev main_call1_v0 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S100000x128_S128x128_S100000x128_1_0_0_1_n_n_wf : DotDims.WF S100000x128 S128x128 S100000x128 [1] [0] [0] [1] [] []
  dot_S20000x128_S128x128_S20000x128_1_0_0_1_n_n_wf : DotDims.WF S20000x128 S128x128 S20000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S20000x128_S600000x1_S600000x128_1_0_n_n_0_1_1128_wf : GatherDims.WF S20000x128 S600000x1 S600000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf

class Facts : Prop extends Facts₀ where

variable [Facts]
-- ==== Proof.Layer.lean ====
/-
  One layer of message passing on a graph with two kinds of nodes, as one function of whole arrays.

  There are 100000 nodes of the first kind and 20000 of the second, each with 128 features, and two tables of 600000
  edges, each a pair of rows (ends) of node numbers.  With P and Q the projected features of the two kinds
  (Y = X · W + b, row by row), the layer returns

      max (P + mean (P[src] → dst) + mean (Q[m] → o), 0)      for the first kind,
      max (Q + mean (P[o] → m), 0)                             for the second,

  where for a table's two rows (s, d) "mean (T[s] → d)" gathers row s[e] of T for every edge e (a negative s[e]
  counted from the end), adds the gathered rows into the row d[e] of an array of zeros, and divides row n of the
  result by max (number of edges with d[e] = n, 1).  Everything here is spelled with the operations a host program
  is printed with, so that a host program's stretch of operations is this function of its operands by unfolding.
-/
import proofs.«146516_j10496900072194_1_alg».proof.KernelIdeal
import Idealize.ShloMosaic.PureOps.Ideal
import Idealize.ShloMosaic.Lib.ValueIdx

noncomputable section

namespace Cert.Layer

open Idealize.ShloMosaic Idealize.ShloMosaic.ValueIdx
open Cert.KernelIdeal

/-! ## The positive part of a sum -/

/-- The positive part of a sum of three arrays, entry by entry, the sum taken from the left. -/
def relu3 {s : Shape} (a b c : FVec Ideal s .f32) : FVec Ideal s .f32 :=
  maximumf (addf (addf a b) c) (broadcast s (Scalar.ofBits (F := Ideal) .f32 0x00000000#32))

/-- The positive part of a sum of two arrays, entry by entry. -/
def relu2 {s : Shape} (a b : FVec Ideal s .f32) : FVec Ideal s .f32 :=
  maximumf (addf a b) (broadcast s (Scalar.ofBits (F := Ideal) .f32 0x00000000#32))

/-! ## Edge ends, gathers and means -/

variable [Cert.KernelIdeal.Facts]
open Cert.KernelIdeal.Facts₀ Cert.KernelIdeal.Facts

/-- The first row of a table of edges. -/
def ends0 (E : IVec S2x600000 32) : IVec S600000 32 :=
  shapeCast S600000 (extractStridedSlice S1x600000 ![0, 0] E slices_S2x600000_S1x600000_0_0) shapeCasts_S1x600000_S600000

/-- The second row of a table of edges. -/
def ends1 (E : IVec S2x600000 32) : IVec S600000 32 :=
  shapeCast S600000 (extractStridedSlice S1x600000 ![1, 0] E slices_S2x600000_S1x600000_1_0) shapeCasts_S1x600000_S600000

/-- Node numbers as a column, one per edge. -/
def column (v : IVec S600000 32) : IVec S600000x1 32 :=
  broadcastInDim S600000x1 ![0] bcast_S600000_S600000x1_0 v

/-- Node numbers with the negative ones counted from the end of a table of n rows. -/
def fromEnd (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v

/-- The rows of the first kind's table that the edges name. -/
def rowsOfP (P : FVec Ideal S100000x128 .f32) (s : IVec S600000 32) : FVec Ideal S600000x128 .f32 :=
  Host.gather gather_S100000x128_S600000x1_S600000x128_1_0_n_n_0_1_1128 P (column (fromEnd 100000#32 s))

/-- The rows of the second kind's table that the edges name. -/
def rowsOfQ (Q : FVec Ideal S20000x128 .f32) (s : IVec S600000 32) : FVec Ideal S600000x128 .f32 :=
  Host.gather gather_S20000x128_S600000x1_S600000x128_1_0_n_n_0_1_1128 Q (column (fromEnd 20000#32 s))

/-- The mean of the messages arriving at each node of the first kind. -/
def meanAtP (msgs : FVec Ideal S600000x128 .f32) (d : IVec S600000 32) : FVec Ideal S100000x128 .f32 :=
  Host.divf
    (Host.scatterAdd scatter_S100000x128_S600000x1_S600000x128_1_0_0_1
      (broadcastInDim S100000x128 ![] bcast_S_S100000x128 (constant S_ .f32 0x00000000#32)) (column d) msgs)
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32)) (column d)
            (broadcastInDim S600000 ![] bcast_S_S600000 (constant S_ .f32 0x3F800000#32)))
          (broadcastInDim S100000 ![] bcast_S_S100000 (constant S_ .f32 0x3F800000#32)))))

/-- The mean of the messages arriving at each node of the second kind. -/
def meanAtQ (msgs : FVec Ideal S600000x128 .f32) (d : IVec S600000 32) : FVec Ideal S20000x128 .f32 :=
  Host.divf
    (Host.scatterAdd scatter_S20000x128_S600000x1_S600000x128_1_0_0_1
      (broadcastInDim S20000x128 ![] bcast_S_S20000x128 (constant S_ .f32 0x00000000#32)) (column d) msgs)
    (broadcastInDim S20000x128 ![0, 1] bcast_S20000x1_S20000x128_0_1
      (broadcastInDim S20000x1 ![0] bcast_S20000_S20000x1_0
        (maximumf
          (Host.scatterAdd scatter_S20000_S600000x1_S600000_n_0_0_1
            (broadcastInDim S20000 ![] bcast_S_S20000 (constant S_ .f32 0x00000000#32)) (column d)
            (broadcastInDim S600000 ![] bcast_S_S600000 (constant S_ .f32 0x3F800000#32)))
          (broadcastInDim S20000 ![] bcast_S_S20000 (constant S_ .f32 0x3F800000#32)))))

/-- First kind to first kind, along the first table. -/
def alongSeq (P : FVec Ideal S100000x128 .f32) (E : IVec S2x600000 32) : FVec Ideal S100000x128 .f32 :=
  meanAtP (rowsOfP P (ends0 E)) (ends1 E)

/-- First kind to second kind, along the second table. -/
def toSecond (P : FVec Ideal S100000x128 .f32) (E : IVec S2x600000 32) : FVec Ideal S20000x128 .f32 :=
  meanAtQ (rowsOfP P (ends0 E)) (ends1 E)

/-- Second kind to first kind, against the second table. -/
def toFirst (Q : FVec Ideal S20000x128 .f32) (E : IVec S2x600000 32) : FVec Ideal S100000x128 .f32 :=
  meanAtP (rowsOfQ Q (ends1 E)) (ends0 E)

/-- The layer's result for the first kind. -/
def newP (P : FVec Ideal S100000x128 .f32) (Q : FVec Ideal S20000x128 .f32) (E₁ E₂ : IVec S2x600000 32) :
    FVec Ideal S100000x128 .f32 :=
  relu3 P (alongSeq P E₁) (toFirst Q E₂)

/-- The layer's result for the second kind. -/
def newQ (P : FVec Ideal S100000x128 .f32) (Q : FVec Ideal S20000x128 .f32) (E₂ : IVec S2x600000 32) :
    FVec Ideal S20000x128 .f32 :=
  relu2 Q (toSecond P E₂)

end Cert.Layer

end
-- ==== Proof.Combine.lean ====
/-
  The two combining regions of the kernel program, read as whole arrays.

  Each of them walks over blocks of 2000 rows of arrays of 128 columns; at a block it adds the operands' blocks
  entry by entry and keeps the positive part. An entry of the result depends only on the operands' entries at the
  same place, the operands and the result move through the rows together, and the blocks tile the rows exactly
  (100000 = 50 · 2000, 20000 = 10 · 2000). So the array a region leaves is the positive part of the entrywise
  sum of its whole operand arrays as the region found them.
-/
import proofs.«146516_j10496900072194_1_alg».proof.Proof.Gen.KernelIdeal.Frame
import proofs.«146516_j10496900072194_1_alg».proof.Proof.Layer
import Idealize.ShloMosaic.Lib.Pipeline.Value
import Idealize.ShloMosaic.Lib.ValueIdx
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

theorem relu3_apply {s : Shape} (a b c : FVec Ideal s .f32) (i : s.Idx) :
    relu3 a b c i = FloatOps.maximumf (FloatOps.addf (FloatOps.addf (a i) (b i)) (c i)) (Scalar.ofBits (F := Ideal) .f32 0x00000000#32) := rfl

theorem relu2_apply {s : Shape} (a b : FVec Ideal s .f32) (i : s.Idx) :
    relu2 a b i = FloatOps.maximumf (FloatOps.addf (a i) (b i)) (Scalar.ofBits (F := Ideal) .f32 0x00000000#32) := rfl

theorem origin : (![0, 0] : Fin 2 → Nat) = fun _ => 0 := funext fun a => by fin_cases a <;> rfl

/-- The three-operand body's stored value is the positive part of the sum of its loaded blocks. -/
theorem body3_eq (x0 x1 x2 : Vec Ideal S2000x128 .f32) : k2_pay1 x0 x1 x2 = relu3 x0 x1 x2 := by
  unfold k2_pay1 relu3
  simp only [shapeCast_self]

/-- The two-operand body's stored value likewise. -/
theorem body2_eq (x0 x1 : Vec Ideal S2000x128 .f32) : k3_pay1 x0 x1 = relu2 x0 x1 := by
  unfold k3_pay1 relu2
  simp only [shapeCast_self]

variable (V : (c : Dev nD) → (b : Ref sig .tc) → Buf (Elt Ideal) ((c : Thread nD τ).loc b))

/-! ## The three-operand region -/

/-- All four windows of the three-operand region sit at the same block of rows at every point. -/
theorem together3 : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) = t.val ∧ win2_3.index t (1 : Fin 2) = 0 :=
  (by decide +kernel : ∀ t : Fin grid2.N, _)

/-- What a point writes back is its block of the positive part of the whole operands' sum. -/
theorem flushed3 (c : Dev nD) (t : Fin cfg2.N) :
    (dat2 V c).flushed 3 t = ((cfg2.win 3).blk t).view.read (Elt Ideal) (relu3 (V c main_v1) (V c main_v26) (V c main_v68)) := by
  show (cfg2.win 3).cut (grid2.coords t) ((dat2 V c).after 3 t) = _
  rw [after2_3]
  unfold out2_3
  rw [View.canon_unit_zero origin]
  simp only [View.ld_unit_zero (S := S2000x128) origin]
  rw [body3_eq]
  obtain ⟨e0, e1, e2, e3, e4, e5, -, -⟩ := together3 t
  funext j
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb j = ((cfg2.win 3).blk t).view.emb j := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 128 + 1 * (j 1).val = win2_3.index t (1 : Fin 2) * 128 + 1 * (j 1).val; omega
  show FloatOps.maximumf (FloatOps.addf (FloatOps.addf (V c main_v1 (((cfg2.win 0).blk t).view.emb j)) (V c main_v26 (((cfg2.win 1).blk t).view.emb j))) (V c main_v68 (((cfg2.win 2).blk t).view.emb j))) (Scalar.ofBits (F := Ideal) .f32 0x00000000#32)
    = FloatOps.maximumf (FloatOps.addf (FloatOps.addf (V c main_v1 (((cfg2.win 3).blk t).view.emb j)) (V c main_v26 (((cfg2.win 3).blk t).view.emb j))) (V c main_v68 (((cfg2.win 3).blk t).view.emb j))) (Scalar.ofBits (F := Ideal) .f32 0x00000000#32)
  rw [h0, h1, h2]

/-- An index of the result lies in a point's block exactly when its row does. -/
theorem mem_block3 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v69).slice (win2_3.rect t)).set ↔ _
  rw [View.set_slice_whole, Rect.mem_set_unit]
  exact Iff.rfl

/-- Row r lies in the block of point r / 2000. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, e6, e7⟩ := together3 t
  have e6' : win2_3.index t (0 : Fin 2) = (i 0).val / 2000 := e6
  refine ⟨t, flush2_3 t, ?_⟩
  rw [mem_block3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The array the three-operand region leaves. -/
theorem whole3 (c : Dev nD) :
    (dat2 V c).arrAt 3 cfg2.N = relu3 (V c main_v1) (V c main_v26) (V c main_v68) :=
  (dat2 V c).arrAt_eq_of_cover 3 _ (fun t _ => flushed3 V c t) cover3

/-! ## The two-operand region -/

/-- All three windows of the two-operand region sit at the same block of rows at every point. -/
theorem together2 : ∀ t : Fin cfg3.N,
    win3_0.index t (0 : Fin 2) = win3_2.index t (0 : Fin 2) ∧ win3_0.index t (1 : Fin 2) = win3_2.index t (1 : Fin 2)
    ∧ win3_1.index t (0 : Fin 2) = win3_2.index t (0 : Fin 2) ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What a point writes back is its block of the positive part of the whole operands' sum. -/
theorem flushed2 (c : Dev nD) (t : Fin cfg3.N) :
    (dat3 V c).flushed 2 t = ((cfg3.win 2).blk t).view.read (Elt Ideal) (relu2 (V c main_v3) (V c main_v49)) := by
  show (cfg3.win 2).cut (grid3.coords t) ((dat3 V c).after 2 t) = _
  rw [after3_2]
  unfold out3_2
  rw [View.canon_unit_zero origin]
  simp only [View.ld_unit_zero (S := S2000x128) origin]
  rw [body2_eq]
  obtain ⟨e0, e1, e2, e3, -, -⟩ := together2 t
  funext j
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 128 + 1 * (j 1).val = win3_2.index t (1 : Fin 2) * 128 + 1 * (j 1).val; omega
  show FloatOps.maximumf (FloatOps.addf (V c main_v3 (((cfg3.win 0).blk t).view.emb j)) (V c main_v49 (((cfg3.win 1).blk t).view.emb j))) (Scalar.ofBits (F := Ideal) .f32 0x00000000#32)
    = FloatOps.maximumf (FloatOps.addf (V c main_v3 (((cfg3.win 2).blk t).view.emb j)) (V c main_v49 (((cfg3.win 2).blk t).view.emb j))) (Scalar.ofBits (F := Ideal) .f32 0x00000000#32)
  rw [h0, h1]

/-- An index of the result lies in a point's block exactly when its row does. -/
theorem mem_block2 (t : Fin cfg3.N) (i : S20000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v70).slice (win3_2.rect t)).set ↔ _
  rw [View.set_slice_whole, Rect.mem_set_unit]
  exact Iff.rfl

/-- Row r lies in the block of point r / 2000. -/
theorem cover2 (i : S20000x128.Idx) : ∃ t : Fin cfg3.N, (cfg3.win 2).flush t = true ∧ i ∈ ((cfg3.win 2).blk t).view.set := by
  have hi0 : (i 0).val < 20000 := (i 0).isLt
  have hi1 : (i 1).val < 128 := (i 1).isLt
  have hN : cfg3.N = 10 := N_3
  let t : Fin cfg3.N := ⟨(i 0).val / 2000, by rw [hN]; omega⟩
  obtain ⟨-, -, -, -, e4, e5⟩ := together2 t
  have e4' : win3_2.index t (0 : Fin 2) = (i 0).val / 2000 := e4
  refine ⟨t, flush3_2 t, ?_⟩
  rw [mem_block2]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The array the two-operand region leaves. -/
theorem whole2 (c : Dev nD) :
    (dat3 V c).arrAt 2 cfg3.N = relu2 (V c main_v3) (V c main_v49) :=
  (dat3 V c).arrAt_eq_of_cover 2 _ (fun t _ => flushed2 V c t) cover2

end Cert.KernelIdeal.Whole

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«146516_j10496900072194_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSage.lean ====
/-
  A mean-aggregating graph layer over the extended reals, for any extents: the dense layer max (A · Wl + X · Wr + b, 0)
  and the output projection H · Wo + bo as whole-array functions (`layerFn`, `outFn`), their host spelling
  (`host_layer`, `host_out`: dot_general, a bias broadcast from a vector, relu) and their block-body spelling
  (`block_layer`, `block_out`: operands narrowed to sixteen bits, products into zeros, a one-row bias), row locality
  (`layerAt_row`, `outAt_row`), and the mean by division against the mean by the reciprocal (`mean_div_eq_mul`,
  over `count_real`: a guarded count of scattered ones is a nonzero real).

  The arithmetic both programs share.

  A layer takes, for every node n, the mean A[n, :] of its in-neighbours' features and its own features X[n, :], and
  returns  max (A[n, :] · Wl + X[n, :] · Wr + b, 0);  the output projection returns  H[n, :] · Wo + bo.  Every entry of
  a layer's result depends on ONE row of A and of X, so the same formula describes a block of rows and the whole array.
  One program adds the bias before the second product and the other after it: addition of extended reals is commutative
  and associative, so the two orders agree at the infinities too.

  The mean divides each aggregated row by c[n] = max (number of edges into n, 1).  The count is a finite sum of ones, a
  real number, so c[n] is a real number that is at least 1; dividing an extended real by a nonzero real IS multiplying it
  by the reciprocal, so  a / c[n] = a · (1 / c[n])  for every extended real a.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«146516_j10496900072194_1_alg».proof.Proof.LibFinite
import proofs.«146516_j10496900072194_1_alg».proof.Proof.LibConsts
import proofs.«146516_j10496900072194_1_alg».proof.Proof.LibDotSum

noncomputable section

namespace Cert.Sage

open Idealize.ShloMosaic Idealize.ShloMosaic.ValueIdx Cert.LibFinite
open scoped BigOperators

variable {M K N : Nat}

/-! ## The layer and the output projection, entry by entry -/

/-- Entry (r, j) of a layer: the two row-by-column products, the bias, the positive part. -/
def layerAt (A X : (⟨2, ![M, K]⟩ : Shape).Idx → EReal) (Wl Wr : (⟨2, ![K, N]⟩ : Shape).Idx → EReal)
    (b : Fin N → EReal) (r : Fin M) (j : Fin N) : EReal :=
  max (((∑ k : Fin K, A (ix2 r k) * Wl (ix2 k j)) + ∑ k : Fin K, X (ix2 r k) * Wr (ix2 k j)) + b j) 0

/-- A layer as one array. -/
def layerFn (A X : (⟨2, ![M, K]⟩ : Shape).Idx → EReal) (Wl Wr : (⟨2, ![K, N]⟩ : Shape).Idx → EReal)
    (b : Fin N → EReal) : (⟨2, ![M, N]⟩ : Shape).Idx → EReal :=
  fun i => layerAt A X Wl Wr b (i 0) (i 1)

theorem layerFn_ix2 (A X : (⟨2, ![M, K]⟩ : Shape).Idx → EReal) (Wl Wr : (⟨2, ![K, N]⟩ : Shape).Idx → EReal)
    (b : Fin N → EReal) (r : Fin M) (j : Fin N) : layerFn A X Wl Wr b (ix2 r j) = layerAt A X Wl Wr b r j := rfl

/-- Entry (r, j) of the output projection. -/
def outAt (H : (⟨2, ![M, K]⟩ : Shape).Idx → EReal) (Wo : (⟨2, ![K, N]⟩ : Shape).Idx → EReal) (bo : Fin N → EReal)
    (r : Fin M) (j : Fin N) : EReal :=
  (∑ k : Fin K, H (ix2 r k) * Wo (ix2 k j)) + bo j

/-- The output projection as one array. -/
def outFn (H : (⟨2, ![M, K]⟩ : Shape).Idx → EReal) (Wo : (⟨2, ![K, N]⟩ : Shape).Idx → EReal) (bo : Fin N → EReal) :
    (⟨2, ![M, N]⟩ : Shape).Idx → EReal :=
  fun i => outAt H Wo bo (i 0) (i 1)

theorem outFn_ix2 (H : (⟨2, ![M, K]⟩ : Shape).Idx → EReal) (Wo : (⟨2, ![K, N]⟩ : Shape).Idx → EReal) (bo : Fin N → EReal)
    (r : Fin M) (j : Fin N) : outFn H Wo bo (ix2 r j) = outAt H Wo bo r j := rfl

/-- Row r of a block is row n of the array: a layer's entry in that row is the same number. -/
theorem layerAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (j : Fin N) : layerAt Ab Xb Wlb Wrb bb r j = layerAt A X Wl Wr b n j := by
  unfold layerAt
  rw [hb j]
  simp only [hA, hX, hWl, hWr]

/-- The same for the output projection. -/
theorem outAt_row {Mb : Nat} (Hb : (⟨2, ![Mb, K]⟩ : Shape).Idx → EReal) (H : (⟨2, ![M, K]⟩ : Shape).Idx → EReal)
    (Wob Wo : (⟨2, ![K, N]⟩ : Shape).Idx → EReal) (bob bo : Fin N → EReal) (r : Fin Mb) (n : Fin M)
    (hH : ∀ k, Hb (ix2 r k) = H (ix2 n k)) (hWo : ∀ k j, Wob (ix2 k j) = Wo (ix2 k j)) (hb : ∀ j, bob j = bo j)
    (j : Fin N) : outAt Hb Wob bob r j = outAt H Wo bo n j := by
  unfold outAt
  rw [hb j]
  simp only [hH, hWo]

/-! ## Bias rows and the zero splat read at an index -/

/-- A length-N vector laid out as one row and repeated down M rows reads, at (r, j), its entry j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_apply ![0, 1] h2 _ (ix2 r j) (ix2 (0 : Fin 1) j) (fun ax => by
    match ax with
    | ⟨0, _⟩ => rfl
    | ⟨1, _⟩ =>
      show j.val = if N = 1 then 0 else j.val
      split
      · have := j.isLt; omega
      · rfl)]
  exact broadcastInDim_apply ![1] h1 v (ix2 (0 : Fin 1) j) (ix1 j) (fun ax => by
    match ax with
    | ⟨0, _⟩ =>
      show j.val = if N = 1 then 0 else j.val
      split
      · have := j.isLt; omega
      · rfl)

/-! ## The host's spelling of a layer and of the output projection -/

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + b) + X · Wr, then the positive part: the layer, the bias moved past the second product. -/
theorem host_layer (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl)
        (broadcastInDim ⟨2, ![M, N]⟩ ![0, 1] h2 (broadcastInDim ⟨2, ![1, N]⟩ ![1] h1 bv)))
        (Host.dotGeneral d none X Wr))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j)
      + broadcastInDim ⟨2, ![M, N]⟩ ![0, 1] h2 (broadcastInDim ⟨2, ![1, N]⟩ ![1] h1 bv) (ix2 r j))
      + Host.dotGeneral d none X Wr (ix2 r j)) (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  unfold layerAt
  rw [add_right_comm]

include hlc hrc hln hrn hlb hrb in
/-- H · Wo + bo: the output projection. -/
theorem host_out (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = outFn H Wo (fun j => bv (ix1 j)) := by
  funext i
  obtain ⟨r, j, rfl⟩ : ∃ (r : Fin M) (j : Fin N), i = ix2 r j := ⟨i 0, i 1, eq_ix2 i⟩
  show Host.dotGeneral d none H Wo (ix2 r j)
      + broadcastInDim ⟨2, ![M, N]⟩ ![0, 1] h2 (broadcastInDim ⟨2, ![1, N]⟩ ![1] h1 bv) (ix2 r j) = outAt H Wo (fun j => bv (ix1 j)) r j
  rw [Cert.Lib.dotGeneral_rc_apply d hlc hrc hln hrn hlb hrb, bias_apply]
  rfl

end Host

/-! ## A block body's spelling of a layer and of the output projection -/

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- (A · Wl + X · Wr) + b, then the positive part, the four operands narrowed to sixteen bits first (no change over
    the extended reals) and each product accumulated into zeros. -/
theorem block_layer (hbits : FTy.bf16.bits < FTy.f32.bits) (A X : FVec Ideal ⟨2, ![M, K]⟩ .f32) (Wl Wr : FVec Ideal ⟨2, ![K, N]⟩ .f32)
    (b : FVec Ideal ⟨2, ![1, N]⟩ .f32) :
    maximumf (addf (addf
        (matmul d none (truncf .bf16 A hbits) (truncf .bf16 Wl hbits) (constant ⟨2, ![M, N]⟩ .f32 0x00000000#32))
        (matmul d none (truncf .bf16 X hbits) (truncf .bf16 Wr hbits) (constant ⟨2, ![M, N]⟩ .f32 0x00000000#32)))
        (broadcastTo ⟨2, ![M, N]⟩ b hb))
      (broadcast ⟨2, ![M, N]⟩ (Scalar.ofBits (F := Ideal) .f32 0x00000000#32))
    = layerFn A X Wl Wr (fun j => b (ix2 (0 : Fin 1) j)) := by
  funext i
  obtain ⟨r, j, rfl⟩ : ∃ (r : Fin M) (j : Fin N), i = ix2 r j := ⟨i 0, i 1, eq_ix2 i⟩
  show max ((matmul d none (truncf .bf16 A hbits) (truncf .bf16 Wl hbits) (constant ⟨2, ![M, N]⟩ .f32 0x00000000#32) (ix2 r j)
      + matmul d none (truncf .bf16 X hbits) (truncf .bf16 Wr hbits) (constant ⟨2, ![M, N]⟩ .f32 0x00000000#32) (ix2 r j))
      + broadcastTo ⟨2, ![M, N]⟩ b hb (ix2 r j)) (Ideal.ofBits .f32 0x00000000#32) = layerAt A X Wl Wr (fun j => b (ix2 (0 : Fin 1) j)) r j
  rw [Cert.Lib.matmul_rc_apply d hlc hrc hln hrn hlb hrb, Cert.Lib.matmul_rc_apply d hlc hrc hln hrn hlb hrb,
    broadcastTo_1b_ab_apply, Cert.LibConsts.ofBits_zero]
  rfl

include hlc hrc hln hrn hlb hrb in
/-- H · Wo + bo with H and Wo narrowed first and the product accumulated into zeros. -/
theorem block_out (hbits : FTy.bf16.bits < FTy.f32.bits) (H : FVec Ideal ⟨2, ![M, K]⟩ .f32) (Wo : FVec Ideal ⟨2, ![K, N]⟩ .f32)
    (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = outFn H Wo (fun j => b (ix2 (0 : Fin 1) j)) := by
  funext i
  obtain ⟨r, j, rfl⟩ : ∃ (r : Fin M) (j : Fin N), i = ix2 r j := ⟨i 0, i 1, eq_ix2 i⟩
  show matmul d none (truncf .bf16 H hbits) (truncf .bf16 Wo hbits) (constant ⟨2, ![M, N]⟩ .f32 0x00000000#32) (ix2 r j)
      + broadcastTo ⟨2, ![M, N]⟩ b hb (ix2 r j) = outAt H Wo (fun j => b (ix2 (0 : Fin 1) j)) r j
  rw [Cert.Lib.matmul_rc_apply d hlc hrc hln hrn hlb hrb, broadcastTo_1b_ab_apply]
  rfl

end Block

/-! ## The in-degree, and the mean by division and by the reciprocal -/

/-- max (number of updates landing on n, 1) is a real number other than zero: ones accumulated into zeros. -/
theorem count_real {sN sE1 sE : Shape} {w : Nat} (sc : ScatterDims sN sE1 sE) (idx : IVec sE1 w)
    (Z One : FVec Ideal sN .f32) (O : FVec Ideal sE .f32) (hZ : ∀ n, Z n = 0) (hO : ∀ j, O j = 1)
    (hOne : ∀ n, One n = 1) (n : sN.Idx) :
    ∃ r : ℝ, r ≠ 0 ∧ maximumf (Host.scatterAdd sc Z idx O) One n = (r : EReal) := by
  have hs : IsFin (Host.scatterAdd sc Z idx O n) := by
    show IsFin (Z n + ∑ j ∈ Finset.univ.filter (fun j => sc.resultIdx? j idx = some n), O j)
    rw [hZ]
    exact isFin_zero.add (isFin_sum _ _ fun j _ => by rw [hO]; exact isFin_one)
  obtain ⟨a, ha⟩ := isFin_iff.mp hs
  refine ⟨max a 1, (lt_of_lt_of_le one_pos (le_max_right a 1)).ne', ?_⟩
  show max (Host.scatterAdd sc Z idx O n) (One n) = _
  rw [ha, hOne, ← EReal.coe_one]
  exact (EReal.coe_strictMono.monotone.map_max).symm

/-- Two broadcasts in a row read their operand at one index. -/
theorem bcast2_reads {sN sN1 sNW : Shape} {d1 : Fin sN.rank → Fin sN1.rank} (h1 : sN.BroadcastsInDim sN1 d1)
    {d2 : Fin sN1.rank → Fin sNW.rank} (h2 : sN1.BroadcastsInDim sNW d2) :
    ∃ π : sNW.Idx → sN.Idx, ∀ (v : sN.Idx → EReal) (i : sNW.Idx),
      broadcastInDim sNW d2 h2 (broadcastInDim sN1 d1 h1 v) i = v (π i) :=
  ⟨_, fun _ _ => rfl⟩

/-- Dividing the aggregate by the guarded in-degree is multiplying it by the guarded in-degree's reciprocal. -/
theorem mean_div_eq_mul {s0 sN sN1 sNW sE1 sE : Shape} {w : Nat} (sc : ScatterDims sN sE1 sE) (idx : IVec sE1 w)
    {d0N : Fin s0.rank → Fin sN.rank} (h0N : s0.BroadcastsInDim sN d0N)
    {d0E : Fin s0.rank → Fin sE.rank} (h0E : s0.BroadcastsInDim sE d0E)
    {d1 : Fin sN.rank → Fin sN1.rank} (h1 : sN.BroadcastsInDim sN1 d1)
    {d2 : Fin sN1.rank → Fin sNW.rank} (h2 : sN1.BroadcastsInDim sNW d2) (agg : FVec Ideal sNW .f32) :
    Host.divf agg (broadcastInDim sNW d2 h2 (broadcastInDim sN1 d1 h1
      (maximumf (Host.scatterAdd sc (broadcastInDim sN d0N h0N (constant s0 .f32 0x00000000#32)) idx
          (broadcastInDim sE d0E h0E (constant s0 .f32 0x3F800000#32)))
        (broadcastInDim sN d0N h0N (constant s0 .f32 0x3F800000#32)))))
    = mulf agg (broadcastInDim sNW d2 h2 (broadcastInDim sN1 d1 h1
      (Host.divf (broadcastInDim sN d0N h0N (constant s0 .f32 0x3F800000#32))
        (maximumf (Host.scatterAdd sc (broadcastInDim sN d0N h0N (constant s0 .f32 0x00000000#32)) idx
            (broadcastInDim sE d0E h0E (constant s0 .f32 0x3F800000#32)))
          (broadcastInDim sN d0N h0N (constant s0 .f32 0x3F800000#32)))))) := by
  obtain ⟨π, hπ⟩ := bcast2_reads h1 h2
  funext i
  show Ideal.div (agg i) (broadcastInDim sNW d2 h2 (broadcastInDim sN1 d1 h1 _) i)
    = agg i * broadcastInDim sNW d2 h2 (broadcastInDim sN1 d1 h1 _) i
  rw [hπ, hπ]
  obtain ⟨r, hr, hc⟩ := count_real sc idx (broadcastInDim sN d0N h0N (constant s0 .f32 0x00000000#32))
    (broadcastInDim sN d0N h0N (constant s0 .f32 0x3F800000#32)) (broadcastInDim sE d0E h0E (constant s0 .f32 0x3F800000#32))
    (fun _ => Cert.LibConsts.ofBits_zero) (fun _ => Cert.LibConsts.ofBits_one) (fun _ => Cert.LibConsts.ofBits_one) (π i)
  show Ideal.div (agg i) _ = agg i * Ideal.div (Ideal.ofBits .f32 0x3F800000#32) _
  rw [hc, Cert.LibConsts.ofBits_one, Ideal.div_coe hr, Ideal.div_coe hr, one_mul]

end Cert.Sage

end
-- ==== Proof.Project.lean ====
/-
  The two projecting regions of the kernel program, read as whole arrays.

  Each walks over blocks of 2000 rows of its operand X; at a block it multiplies the block's rows by the whole
  128 × 128 weight W (both narrowed to sixteen bits first, which changes nothing over the extended reals), starting
  from zeros, and adds the one-row bias b to every row:  Y[n, j] = Σ_k X[n, k] · W[k, j] + b[0, j].
  Row n of Y depends on row n of X only, the operand's and the result's windows move through the rows together, the
  weight and the bias are read whole at every point, and the blocks tile the rows exactly (100000 = 50 · 2000,
  20000 = 10 · 2000): the array a region leaves is that affine map of its whole operand.
-/
import proofs.«146516_j10496900072194_1_alg».proof.Proof.Gen.KernelIdeal.Frame
import proofs.«146516_j10496900072194_1_alg».proof.Proof.LibSage
import Idealize.ShloMosaic.Lib.Pipeline.Value
import Idealize.ShloMosaic.Lib.ValueIdx
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

theorem origin2 : (![0, 0] : Fin 2 → Nat) = fun _ => 0 := funext fun a => by fin_cases a <;> rfl

/-- The first projecting body's stored value: rows times weight plus the bias row. -/
theorem body0_eq (x0 : Vec Ideal S2000x128 .f32) (x1 : Vec Ideal S128x128 .f32) (x2 : Vec Ideal S1x128 .f32) :
    k0_pay1 x0 x1 x2 = outFn x0 x1 (fun j => x2 (ix2 (0 : Fin 1) j)) := by
  unfold k0_pay1
  simp only [shapeCast_self]
  exact block_out dot_S2000x128_S128x128_S2000x128_1_0_0_1_n_n rfl rfl rfl rfl rfl rfl broadcasts_S1x128_S2000x128 bitsLt_bf16_f32 x0 x1 x2

/-- The second projecting body's stored value likewise. -/
theorem body1_eq (x0 : Vec Ideal S2000x128 .f32) (x1 : Vec Ideal S128x128 .f32) (x2 : Vec Ideal S1x128 .f32) :
    k1_pay1 x0 x1 x2 = outFn x0 x1 (fun j => x2 (ix2 (0 : Fin 1) j)) := by
  unfold k1_pay1
  simp only [shapeCast_self]
  exact block_out dot_S2000x128_S128x128_S2000x128_1_0_0_1_n_n rfl rfl rfl rfl rfl rfl broadcasts_S1x128_S2000x128 bitsLt_bf16_f32 x0 x1 x2

variable (V : (c : Dev nD) → (b : Ref sig .tc) → Buf (Elt Ideal) ((c : Thread nD τ).loc b))

/-! ## The projection of the 100000 × 128 array -/

/-- At every point the operand's and the result's windows sit at the same block of rows; the weight's and the
    bias's windows stay at their one block. -/
theorem together0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What a point writes back is its block of rows of the affine map of the whole operand. -/
theorem flushedP0 (c : Dev nD) (t : Fin cfg0.N) :
    (dat0 V c).flushed 3 t = ((cfg0.win 3).blk t).view.read (Elt Ideal)
      (outFn (V c main_arg0) (V c main_arg4) (fun j => V c main_v0 (ix2 (0 : Fin 1) j))) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2, View.ld_unit_zero (S := S1x128) origin2]
  rw [body0_eq]
  obtain ⟨e0, e1, e2, e3, e4, e5, e6, e7⟩ := together0 t
  funext j
  obtain ⟨r, q, rfl⟩ : ∃ (r : Fin 2000) (q : Fin 128), j = ix2 r q := ⟨j 0, j 1, eq_ix2 j⟩
  have hq : (((cfg0.win 3).blk t).view.emb (ix2 r q)) 1 = q := by
    apply Fin.ext
    show win0_3.index t (1 : Fin 2) * 128 + 1 * q.val = q.val
    omega
  show outAt (iblk0 V c 0 t) (iblk0 V c 1 t) (fun j => iblk0 V c 2 t (ix2 (0 : Fin 1) j)) r q
    = outAt (V c main_arg0) (V c main_arg4) (fun j => V c main_v0 (ix2 (0 : Fin 1) j))
        ((((cfg0.win 3).blk t).view.emb (ix2 r q)) 0) ((((cfg0.win 3).blk t).view.emb (ix2 r q)) 1)
  rw [hq]
  refine outAt_row _ _ _ _ _ _ r _ (fun k => ?_) (fun k j => ?_) (fun j => ?_) q
  · show V c main_arg0 (((cfg0.win 0).blk t).view.emb (ix2 r k)) = V c main_arg0 (ix2 _ k)
    refine congrArg _ (funext fun a => Fin.ext ?_)
    match a with
    | ⟨0, _⟩ => show win0_0.index t (0 : Fin 2) * 2000 + 1 * r.val = win0_3.index t (0 : Fin 2) * 2000 + 1 * r.val; omega
    | ⟨1, _⟩ => show win0_0.index t (1 : Fin 2) * 128 + 1 * k.val = k.val; omega
  · show V c main_arg4 (((cfg0.win 1).blk t).view.emb (ix2 k j)) = V c main_arg4 (ix2 k j)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · show V c main_v0 (((cfg0.win 2).blk t).view.emb (ix2 (0 : Fin 1) j)) = V c main_v0 (ix2 (0 : Fin 1) j)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega

/-- An index of the result lies in a point's block exactly when its row does. -/
theorem mem_blockP0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Row r lies in the block of point r / 2000. -/
theorem coverP0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e6, e7⟩ := together0 t
  have e6' : win0_3.index t (0 : Fin 2) = (i 0).val / 2000 := e6
  refine ⟨t, flush0_3 t, ?_⟩
  rw [mem_blockP0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The array this projection leaves: the affine map of the whole operand, weight and bias row as the region found them. -/
theorem wholeP0 (c : Dev nD) :
    (dat0 V c).arrAt 3 cfg0.N = outFn (V c main_arg0) (V c main_arg4) (fun j => V c main_v0 (ix2 (0 : Fin 1) j)) :=
  (dat0 V c).arrAt_eq_of_cover 3 _ (fun t _ => flushedP0 V c t) coverP0

/-! ## The projection of the 20000 × 128 array -/

/-- At every point the operand's and the result's windows sit at the same block of rows; the weight's and the
    bias's windows stay at their one block. -/
theorem together1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What a point writes back is its block of rows of the affine map of the whole operand. -/
theorem flushedP1 (c : Dev nD) (t : Fin cfg1.N) :
    (dat1 V c).flushed 3 t = ((cfg1.win 3).blk t).view.read (Elt Ideal)
      (outFn (V c main_arg1) (V c main_arg6) (fun j => V c main_v2 (ix2 (0 : Fin 1) j))) := by
  show (cfg1.win 3).cut (grid1.coords t) ((dat1 V c).after 3 t) = _
  rw [after1_3]
  unfold out1_3
  rw [View.canon_unit_zero origin2]
  simp only [View.ld_unit_zero (S := S2000x128) origin2, View.ld_unit_zero (S := S128x128) origin2, View.ld_unit_zero (S := S1x128) origin2]
  rw [body1_eq]
  obtain ⟨e0, e1, e2, e3, e4, e5, e6, e7⟩ := together1 t
  funext j
  obtain ⟨r, q, rfl⟩ : ∃ (r : Fin 2000) (q : Fin 128), j = ix2 r q := ⟨j 0, j 1, eq_ix2 j⟩
  have hq : (((cfg1.win 3).blk t).view.emb (ix2 r q)) 1 = q := by
    apply Fin.ext
    show win1_3.index t (1 : Fin 2) * 128 + 1 * q.val = q.val
    omega
  show outAt (iblk1 V c 0 t) (iblk1 V c 1 t) (fun j => iblk1 V c 2 t (ix2 (0 : Fin 1) j)) r q
    = outAt (V c main_arg1) (V c main_arg6) (fun j => V c main_v2 (ix2 (0 : Fin 1) j))
        ((((cfg1.win 3).blk t).view.emb (ix2 r q)) 0) ((((cfg1.win 3).blk t).view.emb (ix2 r q)) 1)
  rw [hq]
  refine outAt_row _ _ _ _ _ _ r _ (fun k => ?_) (fun k j => ?_) (fun j => ?_) q
  · show V c main_arg1 (((cfg1.win 0).blk t).view.emb (ix2 r k)) = V c main_arg1 (ix2 _ k)
    refine congrArg _ (funext fun a => Fin.ext ?_)
    match a with
    | ⟨0, _⟩ => show win1_0.index t (0 : Fin 2) * 2000 + 1 * r.val = win1_3.index t (0 : Fin 2) * 2000 + 1 * r.val; omega
    | ⟨1, _⟩ => show win1_0.index t (1 : Fin 2) * 128 + 1 * k.val = k.val; omega
  · show V c main_arg6 (((cfg1.win 1).blk t).view.emb (ix2 k j)) = V c main_arg6 (ix2 k j)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * j.val = j.val; omega
  · show V c main_v2 (((cfg1.win 2).blk t).view.emb (ix2 (0 : Fin 1) j)) = V c main_v2 (ix2 (0 : Fin 1) j)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega

/-- An index of the result lies in a point's block exactly when its row does. -/
theorem mem_blockP1 (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- Row r lies in the block of point r / 2000. -/
theorem coverP1 (i : S20000x128.Idx) : ∃ t : Fin cfg1.N, (cfg1.win 3).flush t = true ∧ i ∈ ((cfg1.win 3).blk t).view.set := by
  have hi0 : (i 0).val < 20000 := (i 0).isLt
  have hi1 : (i 1).val < 128 := (i 1).isLt
  have hN : cfg1.N = 10 := N_1
  let t : Fin cfg1.N := ⟨(i 0).val / 2000, by rw [hN]; omega⟩
  obtain ⟨-, -, -, -, -, -, e6, e7⟩ := together1 t
  have e6' : win1_3.index t (0 : Fin 2) = (i 0).val / 2000 := e6
  refine ⟨t, flush1_3 t, ?_⟩
  rw [mem_blockP1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The array this projection leaves: the affine map of the whole operand, weight and bias row as the region found them. -/
theorem wholeP1 (c : Dev nD) :
    (dat1 V c).arrAt 3 cfg1.N = outFn (V c main_arg1) (V c main_arg6) (fun j => V c main_v2 (ix2 (0 : Fin 1) j)) :=
  (dat1 V c).arrAt_eq_of_cover 3 _ (fun t _ => flushedP1 V c t) coverP1

end Cert.KernelIdeal.Whole

end
-- ==== Proof.KernelValue.lean ====
/-
  What the kernel program computes, as one function of its arguments.

  The program runs two projecting regions, a stretch of host operations (three gathers and mean aggregations) and
  two combining regions.  Its buffers' contents at the boundaries between these pieces are a fold from the launch
  memory; read piece by piece — a projecting region leaves the affine map of its whole operand, the host stretch is
  the three aggregations of the projected tables, a combining region leaves the positive part of its operands' sum,
  and nothing writes a buffer it is not the result of — the two result arrays are the graph layer of the arguments.
-/
import proofs.«146516_j10496900072194_1_alg».proof.Proof.KernelRunNamed
import proofs.«146516_j10496900072194_1_alg».proof.Proof.Combine
import proofs.«146516_j10496900072194_1_alg».proof.Proof.Project
import proofs.«146516_j10496900072194_1_alg».proof.Proof.Layer
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.Layer Cert.Sage

variable (m : (ℓ : Loc nD τ sig) → Buf (Elt Ideal) ℓ) (ρ : Dev nD → PrngReg) (c : Dev nD)

/-! ## Before the first projection -/

theorem at1_arg0 : W1 m ρ c (Proc.devRef .tc main_arg0) = m ((c : Thread nD τ).loc main_arg0) := by
  show StableHlo.after hostOps0 (W0 m ρ c) (Proc.devRef .tc main_arg0) = _
  after_results
theorem at1_arg4 : W1 m ρ c (Proc.devRef .tc main_arg4) = m ((c : Thread nD τ).loc main_arg4) := by
  show StableHlo.after hostOps0 (W0 m ρ c) (Proc.devRef .tc main_arg4) = _
  after_results
theorem at1_arg1 : W1 m ρ c (Proc.devRef .tc main_arg1) = m ((c : Thread nD τ).loc main_arg1) := by
  show StableHlo.after hostOps0 (W0 m ρ c) (Proc.devRef .tc main_arg1) = _
  after_results
theorem at1_arg6 : W1 m ρ c (Proc.devRef .tc main_arg6) = m ((c : Thread nD τ).loc main_arg6) := by
  show StableHlo.after hostOps0 (W0 m ρ c) (Proc.devRef .tc main_arg6) = _
  after_results
theorem at1_arg7 : W1 m ρ c (Proc.devRef .tc main_arg7) = m ((c : Thread nD τ).loc main_arg7) := by
  show StableHlo.after hostOps0 (W0 m ρ c) (Proc.devRef .tc main_arg7) = _
  after_results
theorem at1_arg2 : W1 m ρ c (Proc.devRef .tc main_arg2) = m ((c : Thread nD τ).loc main_arg2) := by
  show StableHlo.after hostOps0 (W0 m ρ c) (Proc.devRef .tc main_arg2) = _
  after_results
theorem at1_arg3 : W1 m ρ c (Proc.devRef .tc main_arg3) = m ((c : Thread nD τ).loc main_arg3) := by
  show StableHlo.after hostOps0 (W0 m ρ c) (Proc.devRef .tc main_arg3) = _
  after_results
/-- The first bias, laid out as one row. -/
theorem at1_bias (j : Fin 128) :
    W1 m ρ c (Proc.devRef .tc main_v0) (ix2 (0 : Fin 1) j) = m ((c : Thread nD τ).loc main_arg5) (ix1 j) := by
  have e : (W1 m ρ c (Proc.devRef .tc main_v0) : S1x128.Idx → EReal)
      = shapeCast S1x128 (m ((c : Thread nD τ).loc main_arg5)) shapeCasts_S128_S1x128 := by
    show StableHlo.after hostOps0 (W0 m ρ c) (Proc.devRef .tc main_v0) = _
    after_results; rfl
  rw [e]
  exact shapeCast_a_1a_apply _ _ _ _

/-! ## After the first projection -/

/-- The first projection's result. -/
theorem at2_P : W2 m ρ c (Proc.devRef .tc main_v1)
    = outFn (m ((c : Thread nD τ).loc main_arg0)) (m ((c : Thread nD τ).loc main_arg4)) (fun j => m ((c : Thread nD τ).loc main_arg5) (ix1 j)) := by
  refine (W2_arr m ρ c 3).trans ((wholeP0 (V1 m ρ) c).trans ?_)
  show outFn (W1 m ρ c (Proc.devRef .tc main_arg0)) (W1 m ρ c (Proc.devRef .tc main_arg4))
      (fun j => W1 m ρ c (Proc.devRef .tc main_v0) (ix2 (0 : Fin 1) j)) = _
  rw [at1_arg0, at1_arg4]
  exact congrArg _ (funext fun j => at1_bias m ρ c j)

theorem at2_arg1 : W2 m ρ c (Proc.devRef .tc main_arg1) = m ((c : Thread nD τ).loc main_arg1) :=
  (W2_of_ne m ρ c main_arg1 (by decide)).trans (at1_arg1 m ρ c)
theorem at2_arg6 : W2 m ρ c (Proc.devRef .tc main_arg6) = m ((c : Thread nD τ).loc main_arg6) :=
  (W2_of_ne m ρ c main_arg6 (by decide)).trans (at1_arg6 m ρ c)
theorem at2_arg7 : W2 m ρ c (Proc.devRef .tc main_arg7) = m ((c : Thread nD τ).loc main_arg7) :=
  (W2_of_ne m ρ c main_arg7 (by decide)).trans (at1_arg7 m ρ c)
theorem at2_arg2 : W2 m ρ c (Proc.devRef .tc main_arg2) = m ((c : Thread nD τ).loc main_arg2) :=
  (W2_of_ne m ρ c main_arg2 (by decide)).trans (at1_arg2 m ρ c)
theorem at2_arg3 : W2 m ρ c (Proc.devRef .tc main_arg3) = m ((c : Thread nD τ).loc main_arg3) :=
  (W2_of_ne m ρ c main_arg3 (by decide)).trans (at1_arg3 m ρ c)

/-! ## Before the second projection -/

theorem at3_arg1 : W3 m ρ c (Proc.devRef .tc main_arg1) = m ((c : Thread nD τ).loc main_arg1) := by
  refine Eq.trans ?_ (at2_arg1 m ρ c)
  show StableHlo.after hostOps1 (W2 m ρ c) (Proc.devRef .tc main_arg1) = _
  after_results
theorem at3_arg6 : W3 m ρ c (Proc.devRef .tc main_arg6) = m ((c : Thread nD τ).loc main_arg6) := by
  refine Eq.trans ?_ (at2_arg6 m ρ c)
  show StableHlo.after hostOps1 (W2 m ρ c) (Proc.devRef .tc main_arg6) = _
  after_results
theorem at3_arg2 : W3 m ρ c (Proc.devRef .tc main_arg2) = m ((c : Thread nD τ).loc main_arg2) := by
  refine Eq.trans ?_ (at2_arg2 m ρ c)
  show StableHlo.after hostOps1 (W2 m ρ c) (Proc.devRef .tc main_arg2) = _
  after_results
theorem at3_arg3 : W3 m ρ c (Proc.devRef .tc main_arg3) = m ((c : Thread nD τ).loc main_arg3) := by
  refine Eq.trans ?_ (at2_arg3 m ρ c)
  show StableHlo.after hostOps1 (W2 m ρ c) (Proc.devRef .tc main_arg3) = _
  after_results
theorem at3_P : W3 m ρ c (Proc.devRef .tc main_v1)
    = outFn (m ((c : Thread nD τ).loc main_arg0)) (m ((c : Thread nD τ).loc main_arg4)) (fun j => m ((c : Thread nD τ).loc main_arg5) (ix1 j)) := by
  refine Eq.trans ?_ (at2_P m ρ c)
  show StableHlo.after hostOps1 (W2 m ρ c) (Proc.devRef .tc main_v1) = _
  after_results
/-- The second bias, laid out as one row. -/
theorem at3_bias (j : Fin 128) :
    W3 m ρ c (Proc.devRef .tc main_v2) (ix2 (0 : Fin 1) j) = m ((c : Thread nD τ).loc main_arg7) (ix1 j) := by
  have e : (W3 m ρ c (Proc.devRef .tc main_v2) : S1x128.Idx → EReal)
      = shapeCast S1x128 (W2 m ρ c (Proc.devRef .tc main_arg7)) shapeCasts_S128_S1x128 := by
    show StableHlo.after hostOps1 (W2 m ρ c) (Proc.devRef .tc main_v2) = _
    after_results; rfl
  rw [e, at2_arg7]
  exact shapeCast_a_1a_apply _ _ _ _

/-! ## After the second projection -/

/-- The second projection's result. -/
theorem at4_Q : W4 m ρ c (Proc.devRef .tc main_v3)
    = outFn (m ((c : Thread nD τ).loc main_arg1)) (m ((c : Thread nD τ).loc main_arg6)) (fun j => m ((c : Thread nD τ).loc main_arg7) (ix1 j)) := by
  refine (W4_arr m ρ c 3).trans ((wholeP1 (V3 m ρ) c).trans ?_)
  show outFn (W3 m ρ c (Proc.devRef .tc main_arg1)) (W3 m ρ c (Proc.devRef .tc main_arg6))
      (fun j => W3 m ρ c (Proc.devRef .tc main_v2) (ix2 (0 : Fin 1) j)) = _
  rw [at3_arg1, at3_arg6]
  exact congrArg _ (funext fun j => at3_bias m ρ c j)

theorem at4_P : W4 m ρ c (Proc.devRef .tc main_v1)
    = outFn (m ((c : Thread nD τ).loc main_arg0)) (m ((c : Thread nD τ).loc main_arg4)) (fun j => m ((c : Thread nD τ).loc main_arg5) (ix1 j)) :=
  (W4_of_ne m ρ c main_v1 (by decide)).trans (at3_P m ρ c)
theorem at4_arg2 : W4 m ρ c (Proc.devRef .tc main_arg2) = m ((c : Thread nD τ).loc main_arg2) :=
  (W4_of_ne m ρ c main_arg2 (by decide)).trans (at3_arg2 m ρ c)
theorem at4_arg3 : W4 m ρ c (Proc.devRef .tc main_arg3) = m ((c : Thread nD τ).loc main_arg3) :=
  (W4_of_ne m ρ c main_arg3 (by decide)).trans (at3_arg3 m ρ c)

/-! ## After the aggregations -/

set_option maxHeartbeats 4000000 in
theorem at5_P : W5 m ρ c (Proc.devRef .tc main_v1) = W4 m ρ c (Proc.devRef .tc main_v1) := by
  show StableHlo.after hostOps2 (W4 m ρ c) (Proc.devRef .tc main_v1) = _
  after_results_simp <;> rfl
set_option maxHeartbeats 4000000 in
theorem at5_Q : W5 m ρ c (Proc.devRef .tc main_v3) = W4 m ρ c (Proc.devRef .tc main_v3) := by
  show StableHlo.after hostOps2 (W4 m ρ c) (Proc.devRef .tc main_v3) = _
  after_results_simp <;> rfl
set_option maxHeartbeats 4000000 in
theorem at5_alongSeq : W5 m ρ c (Proc.devRef .tc main_v26)
    = alongSeq (W4 m ρ c (Proc.devRef .tc main_v1)) (W4 m ρ c (Proc.devRef .tc main_arg2)) := by
  show StableHlo.after hostOps2 (W4 m ρ c) (Proc.devRef .tc main_v26) = _
  after_results_simp <;> rfl
set_option maxHeartbeats 4000000 in
theorem at5_toSecond : W5 m ρ c (Proc.devRef .tc main_v49)
    = toSecond (W4 m ρ c (Proc.devRef .tc main_v1)) (W4 m ρ c (Proc.devRef .tc main_arg3)) := by
  show StableHlo.after hostOps2 (W4 m ρ c) (Proc.devRef .tc main_v49) = _
  after_results_simp <;> rfl
set_option maxHeartbeats 4000000 in
theorem at5_toFirst : W5 m ρ c (Proc.devRef .tc main_v68)
    = toFirst (W4 m ρ c (Proc.devRef .tc main_v3)) (W4 m ρ c (Proc.devRef .tc main_arg3)) := by
  show StableHlo.after hostOps2 (W4 m ρ c) (Proc.devRef .tc main_v68) = _
  after_results_simp <;> rfl

/-! ## The results -/

/-- The first result: the layer's new features of the first kind. -/
theorem result_first : W7 m ρ c (Proc.devRef .tc main_v69)
    = newP (outFn (m ((c : Thread nD τ).loc main_arg0)) (m ((c : Thread nD τ).loc main_arg4)) (fun j => m ((c : Thread nD τ).loc main_arg5) (ix1 j)))
      (outFn (m ((c : Thread nD τ).loc main_arg1)) (m ((c : Thread nD τ).loc main_arg6)) (fun j => m ((c : Thread nD τ).loc main_arg7) (ix1 j)))
      (m ((c : Thread nD τ).loc main_arg2)) (m ((c : Thread nD τ).loc main_arg3)) := by
  refine (W7_of_ne m ρ c main_v69 (by decide)).trans ((W6_arr m ρ c 3).trans ((whole3 (V5 m ρ) c).trans ?_))
  show relu3 (W5 m ρ c (Proc.devRef .tc main_v1)) (W5 m ρ c (Proc.devRef .tc main_v26)) (W5 m ρ c (Proc.devRef .tc main_v68)) = _
  rw [at5_P, at5_alongSeq, at5_toFirst, at4_P, at4_Q, at4_arg2, at4_arg3]
  rfl

/-- The second result: the layer's new features of the second kind. -/
theorem result_second : W7 m ρ c (Proc.devRef .tc main_v70)
    = newQ (outFn (m ((c : Thread nD τ).loc main_arg0)) (m ((c : Thread nD τ).loc main_arg4)) (fun j => m ((c : Thread nD τ).loc main_arg5) (ix1 j)))
      (outFn (m ((c : Thread nD τ).loc main_arg1)) (m ((c : Thread nD τ).loc main_arg6)) (fun j => m ((c : Thread nD τ).loc main_arg7) (ix1 j)))
      (m ((c : Thread nD τ).loc main_arg3)) := by
  refine (W7_arr m ρ c 2).trans ((whole2 (V6 m ρ) c).trans ?_)
  show relu2 (W6 m ρ c (Proc.devRef .tc main_v3)) (W6 m ρ c (Proc.devRef .tc main_v49)) = _
  rw [W6_of_ne m ρ c main_v3 (by decide), W6_of_ne m ρ c main_v49 (by decide)]
  show relu2 (W5 m ρ c (Proc.devRef .tc main_v3)) (W5 m ρ c (Proc.devRef .tc main_v49)) = _
  rw [at5_Q, at5_toSecond, at4_P, at4_Q, at4_arg3]
  rfl

end Cert.KernelIdeal.Whole

end
-- ==== Proof.RefValue.lean ====
/-
  What the reference program computes, as the same function of its arguments.

  The reference is one stretch of host operations: the two projections as a whole-array product plus a bias
  broadcast from a vector, the three gathers and mean aggregations, and the positive part of the sums.  Its run states
  each result as the operations' composed term of the arguments; that term is the graph layer once each projection is
  read as the affine map (a product of a whole table with the weight is, row by row, the sum over the shared axis)
  and the positive part against a broadcast zero is read entry by entry.
-/
import proofs.«146516_j10496900072194_1_alg».proof.Proof.Gen.ReferenceIdeal.Run
import proofs.«146516_j10496900072194_1_alg».proof.Proof.Gen.KernelIdeal
import proofs.«146516_j10496900072194_1_alg».proof.Proof.Layer
import proofs.«146516_j10496900072194_1_alg».proof.Proof.LibSage

set_option maxRecDepth 16384

noncomputable section

namespace Cert.ReferenceIdeal.Whole

open Idealize.ShloMosaic Idealize.ShloMosaic.TcCoe Idealize.ShloMosaic.ValueIdx Idealize.SL.Sem
open Cert.ReferenceIdeal Cert.ReferenceIdeal.Gen Cert.Sage

/-- The first kind's projection in the host's spelling is the affine map. -/
theorem hostP (X : FVec Ideal S100000x128 .f32) (W : FVec Ideal S128x128 .f32) (b : FVec Ideal S128 .f32) :
    addf (Host.dotGeneral dot_S100000x128_S128x128_S100000x128_1_0_0_1_n_n none X W)
      (broadcastInDim S100000x128 ![0, 1] bcast_S1x128_S100000x128_0_1 (broadcastInDim S1x128 ![1] bcast_S128_S1x128_1 b))
    = outFn X W (fun j => b (ix1 j)) :=
  host_out dot_S100000x128_S128x128_S100000x128_1_0_0_1_n_n rfl rfl rfl rfl rfl rfl bcast_S128_S1x128_1 bcast_S1x128_S100000x128_0_1 X W b

/-- The second kind's projection in the host's spelling is the affine map. -/
theorem hostQ (X : FVec Ideal S20000x128 .f32) (W : FVec Ideal S128x128 .f32) (b : FVec Ideal S128 .f32) :
    addf (Host.dotGeneral dot_S20000x128_S128x128_S20000x128_1_0_0_1_n_n none X W)
      (broadcastInDim S20000x128 ![0, 1] bcast_S1x128_S20000x128_0_1 (broadcastInDim S1x128 ![1] bcast_S128_S1x128_1 b))
    = outFn X W (fun j => b (ix1 j)) :=
  host_out dot_S20000x128_S128x128_S20000x128_1_0_0_1_n_n rfl rfl rfl rfl rfl rfl bcast_S128_S1x128_1 bcast_S1x128_S20000x128_0_1 X W b

/-- The positive part against a zero broadcast from a scalar array is the positive part against a splat zero. -/
theorem relu_host {s : Shape} (h : S_.BroadcastsInDim s ![]) (x : FVec Ideal s .f32) :
    maximumf x (broadcastInDim s ![] h (constant S_ .f32 0x00000000#32))
      = maximumf x (broadcast s (Scalar.ofBits (F := Ideal) .f32 0x00000000#32)) := by
  funext i
  rfl

variable (m : (ℓ : Loc nD τ sig) → Buf (Elt Ideal) ℓ) (ρ : Dev nD → PrngReg)

set_option maxHeartbeats 4000000 in
/-- The first result's term is the layer's new features of the first kind. -/
theorem result_first (c : Dev nD) : Cert.ReferenceIdeal.Value.res_main_v75 m c
    = Cert.Layer.newP
        (outFn (m ((c.tc : Thread nD τ).loc main_arg0)) (m ((c.tc : Thread nD τ).loc main_arg4)) (fun j => m ((c.tc : Thread nD τ).loc main_arg5) (ix1 j)))
        (outFn (m ((c.tc : Thread nD τ).loc main_arg1)) (m ((c.tc : Thread nD τ).loc main_arg6)) (fun j => m ((c.tc : Thread nD τ).loc main_arg7) (ix1 j)))
        (m ((c.tc : Thread nD τ).loc main_arg2)) (m ((c.tc : Thread nD τ).loc main_arg3)) := by
  unfold Cert.ReferenceIdeal.Value.res_main_v75
  rw [hostP, hostQ]
  refine (relu_host _ _).trans ?_
  rfl

set_option maxHeartbeats 4000000 in
/-- The reference's run with both results stated as the layer of the arguments. -/
theorem run : θ_run defs (onTc (τ := τ) (main (F := Ideal))) ⟨m, fun _ => 0, ρ⟩ fun r => ∀ c : Dev nD,
      r.2.mem ((c.tc : Thread nD τ).loc main_v75) = Cert.Layer.newP
        (outFn (m ((c.tc : Thread nD τ).loc main_arg0)) (m ((c.tc : Thread nD τ).loc main_arg4)) (fun j => m ((c.tc : Thread nD τ).loc main_arg5) (ix1 j)))
        (outFn (m ((c.tc : Thread nD τ).loc main_arg1)) (m ((c.tc : Thread nD τ).loc main_arg6)) (fun j => m ((c.tc : Thread nD τ).loc main_arg7) (ix1 j)))
        (m ((c.tc : Thread nD τ).loc main_arg2)) (m ((c.tc : Thread nD τ).loc main_arg3))
      ∧ r.2.mem ((c.tc : Thread nD τ).loc main_v77) = Cert.Layer.newQ
        (outFn (m ((c.tc : Thread nD τ).loc main_arg0)) (m ((c.tc : Thread nD τ).loc main_arg4)) (fun j => m ((c.tc : Thread nD τ).loc main_arg5) (ix1 j)))
        (outFn (m ((c.tc : Thread nD τ).loc main_arg1)) (m ((c.tc : Thread nD τ).loc main_arg6)) (fun j => m ((c.tc : Thread nD τ).loc main_arg7) (ix1 j)))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (result_first m c),
      (h c).2.1.trans (by rw [hostP, hostQ]; refine (relu_host _ _).trans ?_; rfl),
      (h c).2.2⟩)
    (Cert.ReferenceIdeal.Value.run (F := Ideal) m ρ)

end Cert.ReferenceIdeal.Whole

end
-- ==== Proof.lean ====
/-
  A layer of message passing on a graph with two kinds of nodes: the kernel program against its reference.

  Both programs project the two feature tables (Y = X · W + b), gather projected rows along two tables of edges,
  average the gathered rows at their destination nodes, add the averages to the projected features and keep the
  positive part.  The kernel program does the projections and the final sums in regions that walk over blocks of
  2000 rows, with the operands narrowed to sixteen bits before each product; the reference does them on whole
  arrays.  Over the extended reals the narrowing changes nothing, a product of a block of rows with the weight is
  row by row the same sums as the product of the whole table, and the gathers and averages between them are the same
  operations in both programs.  So both results are one function of the arguments, the graph layer
  (Proof/Layer.lean); no law beyond reading a product as its sums is used, and finiteness of the inputs is not needed.

  Proof/Project.lean and Proof/Combine.lean read each region's result as a whole array, Proof/KernelRunNamed.lean is
  the kernel program's run with its results named, Proof/KernelValue.lean follows the buffers through the program,
  Proof/RefValue.lean reads the reference's run.
-/
import proofs.«146516_j10496900072194_1_alg».proof.Defs
import proofs.«146516_j10496900072194_1_alg».proof.Proof.Gen.Kernel
import proofs.«146516_j10496900072194_1_alg».proof.Proof.Gen.Kernel.Frame
import proofs.«146516_j10496900072194_1_alg».proof.Proof.Gen.KernelIdeal
import proofs.«146516_j10496900072194_1_alg».proof.Proof.Gen.KernelIdeal.Frame
import proofs.«146516_j10496900072194_1_alg».proof.Proof.Gen.ReferenceIdeal
import proofs.«146516_j10496900072194_1_alg».proof.Proof.Gen.Pre_finite_inputs
import proofs.«146516_j10496900072194_1_alg».proof.Proof.KernelValue
import proofs.«146516_j10496900072194_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Whole.run m ρ)

/-- Both programs end with the graph layer of the (agreeing) arguments in their two results. -/
theorem algebraic : Cert.algebraic_KernelIdeal_ReferenceIdeal := by
  intro m ρ m' ρ' _ hagree
  refine ⟨fun c => Cert.Layer.newP
      (Cert.Sage.outFn (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (fun j => m ((c.tc : Thread Cert.KernelIdeal.nD Cert.KernelIdeal.τ).loc Cert.KernelIdeal.main_arg5) (ix1 j)))
      (Cert.Sage.outFn (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (fun j => m ((c.tc : Thread Cert.KernelIdeal.nD Cert.KernelIdeal.τ).loc Cert.KernelIdeal.main_arg7) (ix1 j)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Layer.newQ
      (Cert.Sage.outFn (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (fun j => m ((c.tc : Thread Cert.KernelIdeal.nD Cert.KernelIdeal.τ).loc Cert.KernelIdeal.main_arg5) (ix1 j)))
      (Cert.Sage.outFn (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (fun j => m ((c.tc : Thread Cert.KernelIdeal.nD Cert.KernelIdeal.τ).loc Cert.KernelIdeal.main_arg7) (ix1 j)))
      (m ((c.tc : Thread Cert.KernelIdeal.nD Cert.KernelIdeal.τ).loc Cert.KernelIdeal.main_arg3)),
    ?_, ?_⟩
  · exact (θ_run Cert.KernelIdeal.defs _ _).mono
      (fun r h c => ⟨(h c).1.trans (Cert.KernelIdeal.Whole.result_first m ρ c),
        (h c).2.1.trans (Cert.KernelIdeal.Whole.result_second m ρ c), (h c).2.2⟩)
      (Cert.KernelIdeal.Named.run_named (F := Ideal) m ρ)
  · refine (θ_run Cert.ReferenceIdeal.defs _ _).mono (fun r h c => ⟨?_, ?_, (h c).2.2⟩)
      (Cert.ReferenceIdeal.Whole.run m' ρ')
    · obtain ⟨a0, a1, a2, a3, a4, a5, a6, a7⟩ := hagree c
      rw [(h c).1, a0, a1, a2, a3, a4, a5, a6, a7]
    · obtain ⟨a0, a1, a2, a3, a4, a5, a6, a7⟩ := hagree c
      rw [(h c).2.1, a0, a1, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
